-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S1000x256 : Shape := ⟨2, ![1000, 256]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S1000x256 : S_.BroadcastsInDim S1000x256 (![] : Fin 0 → Fin S1000x256.rank)
  reducesTo_S1000x256_S_d0_1 : S1000x256.ReducesTo [0, 1] S_

variable [Facts]

def fn {F : FTy → Type} [FloatOps F] (main_arg0 : FVec F S65536x256 .f32) (main_arg1 : FVec F S1000x256 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S1000x256 .f32 := Host.absf main_arg1
  let main_cst_0 : FVec F S_ .f32 := constant S_ .f32 0x7F800000#32
  let main_v5 : FVec F S1000x256 .f32 := broadcastInDim S1000x256 ![] bcast_S_S1000x256 main_cst_0
  let main_v6 : IVec S1000x256 1 := cmpf .olt main_v4 main_v5
  let main_c_1 : IVec S_ 1 := constantI S_ 1 1#1
  let main_v7 : IVec S_ 1 := (fun x v => Host.reduce IntOp.andi x v reducesTo_S1000x256_S_d0_1 h_S_) main_v6 main_c_1
  let main_v8 : IVec S_ 1 := andi main_v3 main_v7
  main_v8
-- ==== Kernel.lean ====
abbrev S65536x256 : Shape := ⟨2, ![65536, 256]⟩
abbrev S1000x256 : Shape := ⟨2, ![1000, 256]⟩
abbrev S65536x1000 : Shape := ⟨2, ![65536, 1000]⟩
abbrev S1024x256 : Shape := ⟨2, ![1024, 256]⟩
abbrev S1024x1000 : Shape := ⟨2, ![1024, 1000]⟩
abbrev S1024 : Shape := ⟨1, ![1024]⟩
abbrev S1024x1 : Shape := ⟨2, ![1024, 1]⟩
abbrev S1000 : Shape := ⟨1, ![1000]⟩
abbrev S1x1000 : Shape := ⟨2, ![1, 1000]⟩

abbrev nBuf : Space → Nat
  | .hbm => 3
  | .vmem => 5
  | .smem => 0
  | _ => 0

abbrev bufTy : (tb : Table) → Fin (tcTables nBuf tb) → BufTy
  | .hbm, ⟨0, _⟩ => ⟨S65536x256, .f32⟩
  | .hbm, ⟨1, _⟩ => ⟨S1000x256, .f32⟩
  | .hbm, ⟨2, _⟩ => ⟨S65536x1000, .f32⟩
  | .local _ .vmem, ⟨0, _⟩ => ⟨S1024x256, .f32⟩
  | .local _ .vmem, ⟨1, _⟩ => ⟨S1024x256, .f32⟩
  | .local _ .vmem, ⟨2, _⟩ => ⟨S1000x256, .f32⟩
  | .local _ .vmem, ⟨3, _⟩ => ⟨S1024x1000, .f32⟩
  | .local _ .vmem, ⟨4, _⟩ => ⟨S1024x1000, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1000x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1024x256_S1024x256_0_0 : ∀ a, (![0, 0] : Fin 2 → Nat) a + S1024x256.size a ≤ S1024x256.size a
  h_S1024x256 : 0 < S1024x256.numel
  inb_S1000x256_S1000x256_0_0 : ∀ a, (![0, 0] : Fin 2 → Nat) a + S1000x256.size a ≤ S1000x256.size a
  h_S1000x256 : 0 < S1000x256.numel
  reduces_S1024x256_S1024 : S1024x256.Reduces [1] S1024
  shapeCasts_S1024_S1024x1 : S1024.ShapeCasts S1024x1
  reduces_S1000x256_S1000 : S1000x256.Reduces [1] S1000
  bitsLt_bf16_f32 : FTy.bits .bf16 < FTy.bits .f32
  shapeCasts_S1000_S1x1000 : S1000.ShapeCasts S1x1000
  broadcasts_S1024x1_S1024x1000 : S1024x1.Broadcasts S1024x1000
  broadcasts_S1x1000_S1024x1000 : S1x1000.Broadcasts S1024x1000
  inb_S1024x1000_S1024x1000_0_0 : ∀ a, (![0, 0] : Fin 2 → Nat) a + S1024x1000.size a ≤ S1024x1000.size a
  h_S1024x1000 : 0 < S1024x1000.numel
  dot_S1024x256_S1000x256_S1024x1000_1_1_0_0_n_n_wf : DotDims.WF S1024x256 S1000x256 S1024x1000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S65536x256.size a
  hwx0_0 : ∀ i : grid0.Coords, EltTy.bits .f32 = 32 ∨ (Rect.block (s := S65536x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1000x256.size a ≤ S1000x256.size a
  hwx0_1 : ∀ i : grid0.Coords, EltTy.bits .f32 = 32 ∨ (Rect.block (s := S1000x256) S1000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1000.size a ≤ S65536x1000.size a
  hwx0_2 : ∀ i : grid0.Coords, EltTy.bits .f32 = 32 ∨ (Rect.block (s := S65536x1000) S1024x1000.size (cc0_transform_2 i) (hinb0_2 i)).WholeWords (EltTy.packing .f32)

variable [Facts₀]

def dot_S1024x256_S1000x256_S1024x1000_1_1_0_0_n_n : DotDims S1024x256 S1000x256 S1024x1000 where
  lhsContracting := [1]
  rhsContracting := [1]
  lhsNonContracting := [0]
  rhsNonContracting := [0]
  lhsBatch := []
  rhsBatch := []
  wf := dot_S1024x256_S1000x256_S1024x1000_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1000.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x256 : Shape := ⟨2, ![65536, 256]⟩
abbrev S1000x256 : Shape := ⟨2, ![1000, 256]⟩
abbrev S_ : Shape := ⟨0, ![]⟩
abbrev S65536 : Shape := ⟨1, ![65536]⟩
abbrev S65536x1 : Shape := ⟨2, ![65536, 1]⟩
abbrev S1000 : Shape := ⟨1, ![1000]⟩
abbrev S65536x1000 : Shape := ⟨2, ![65536, 1000]⟩
abbrev S1x1000 : Shape := ⟨2, ![1, 1000]⟩

abbrev nBuf : Space → Nat
  | .hbm => 23
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S1000x256, .f32⟩
  | .hbm, ⟨2, _⟩ => ⟨S65536x256, .f32⟩
  | .hbm, ⟨3, _⟩ => ⟨S_, .f32⟩
  | .hbm, ⟨4, _⟩ => ⟨S65536, .f32⟩
  | .hbm, ⟨5, _⟩ => ⟨S65536x1, .f32⟩
  | .hbm, ⟨6, _⟩ => ⟨S1000x256, .f32⟩
  | .hbm, ⟨7, _⟩ => ⟨S_, .f32⟩
  | .hbm, ⟨8, _⟩ => ⟨S1000, .f32⟩
  | .hbm, ⟨9, _⟩ => ⟨S65536x1000, .f32⟩
  | .hbm, ⟨10, _⟩ => ⟨S1x1000, .f32⟩
  | .hbm, ⟨11, _⟩ => ⟨S65536x1000, .f32⟩
  | .hbm, ⟨12, _⟩ => ⟨S65536x1000, .f32⟩
  | .hbm, ⟨13, _⟩ => ⟨S65536x1000, .f32⟩
  | .hbm, ⟨14, _⟩ => ⟨S_, .f32⟩
  | .hbm, ⟨15, _⟩ => ⟨S65536x1000, .f32⟩
  | .hbm, ⟨16, _⟩ => ⟨S65536x1000, .f32⟩
  | .hbm, ⟨17, _⟩ => ⟨S65536x1000, .f32⟩
  | .hbm, ⟨18, _⟩ => ⟨S_, .f32⟩
  | .hbm, ⟨19, _⟩ => ⟨S65536x1000, .f32⟩
  | .hbm, ⟨20, _⟩ => ⟨S65536x1000, .f32⟩
  | .hbm, ⟨21, _⟩ => ⟨S65536x1000, .f32⟩
  | .hbm, ⟨22, _⟩ => ⟨S65536x1000, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  reducesTo_S65536x256_S65536_d1 : S65536x256.ReducesTo [1] S65536
  h_S_ : 0 < S_.numel
  bcast_S65536_S65536x1_0 : S65536.BroadcastsInDim S65536x1 (![0] : Fin 1 → Fin S65536x1.rank)
  reducesTo_S1000x256_S1000_d1 : S1000x256.ReducesTo [1] S1000
  bcast_S1000_S1x1000_1 : S1000.BroadcastsInDim S1x1000 (![1] : Fin 1 → Fin S1x1000.rank)
  bcast_S65536x1_S65536x1000_0_1 : S65536x1.BroadcastsInDim S65536x1000 (![0, 1] : Fin 2 → Fin S65536x1000.rank)
  bcast_S1x1000_S65536x1000_0_1 : S1x1000.BroadcastsInDim S65536x1000 (![0, 1] : Fin 2 → Fin S65536x1000.rank)
  bcast_S_S65536x1000 : S_.BroadcastsInDim S65536x1000 (![] : Fin 0 → Fin S65536x1000.rank)
  dot_S65536x256_S1000x256_S65536x1000_1_1_0_0_n_n_wf : DotDims.WF S65536x256 S1000x256 S65536x1000 [1] [1] [0] [0] [] []

variable [Facts₀]

def dot_S65536x256_S1000x256_S65536x1000_1_1_0_0_n_n : DotDims S65536x256 S1000x256 S65536x1000 where
  lhsContracting := [1]
  rhsContracting := [1]
  lhsNonContracting := [0]
  rhsNonContracting := [0]
  lhsBatch := []
  rhsBatch := []
  wf := dot_S65536x256_S1000x256_S65536x1000_1_1_0_0_n_n_wf

class Facts : Prop extends Facts₀ where

variable [Facts]
-- ==== Proof.DistSpec.lean ====
/-
  The negated Euclidean distance between every feature row and every prototype row, through the expansion
  ‖x − p‖² = ‖x‖² + ‖p‖² − 2 ⟨x, p⟩:  entry (r, q) of the result is  −√(max(‖x_r‖² + ‖p_q‖² − 2 ⟨x_r, p_q⟩, 0)),
  with ‖x_r‖² the sum of the squares of row r over its 256 columns and ⟨x_r, p_q⟩ the inner product of the two rows.
  Both programs compute exactly this expansion, in this grouping, so nothing here needs more than the definitions:
  no distributivity, no cancelling, no finiteness of the entries.
-/
import Idealize.ShloMosaic.Lib.ValueIdx
import Idealize.ShloMosaic.PureOps.Ideal.Laws

noncomputable section

namespace Cert.IsoDist

open Idealize.ShloMosaic Idealize.ShloMosaic.ValueIdx

/-- The squared norm of row `r`: the sum of the squares of its entries. -/
def rowSq {n : ℕ} (x : (⟨2, ![n, 256]⟩ : Shape).Idx → EReal) (r : Fin n) : EReal :=
  ∑ κ : Fin 256, x (ix2 r κ) * x (ix2 r κ)

/-- The inner product of row `r` of `x` with row `q` of `p`. -/
def rowDot {n c : ℕ} (x : (⟨2, ![n, 256]⟩ : Shape).Idx → EReal) (p : (⟨2, ![c, 256]⟩ : Shape).Idx → EReal) (r : Fin n) (q : Fin c) : EReal :=
  ∑ κ : Fin 256, x (ix2 r κ) * p (ix2 q κ)

/-- From the two squared norms `s`, `t` and the inner product `d`: minus the root of the clamped expansion. The factor
    two is kept as the float word both programs print. -/
def negDist (s t d : EReal) : EReal :=
  -(Ideal.sqrt (max (s + t - Ideal.ofBits .f32 0x40000000#32 * d) 0))

/-- The whole result: entry `(r, q)` from row `r` of the features and row `q` of the prototypes. -/
def G {n c : ℕ} (x : (⟨2, ![n, 256]⟩ : Shape).Idx → EReal) (p : (⟨2, ![c, 256]⟩ : Shape).Idx → EReal) :
    (⟨2, ![n, c]⟩ : Shape).Idx → EReal :=
  fun i => negDist (rowSq x (i 0)) (rowSq p (i 1)) (rowDot x p (i 0) (i 1))

theorem G_ix2 {n c : ℕ} (x : (⟨2, ![n, 256]⟩ : Shape).Idx → EReal) (p : (⟨2, ![c, 256]⟩ : Shape).Idx → EReal) (r : Fin n) (q : Fin c) :
    G x p (ix2 r q) = negDist (rowSq x r) (rowSq p q) (rowDot x p r q) := rfl

/-- Subtracting from zero is negating, on every extended real. -/
theorem zero_sub_eq_neg (y : EReal) : (0 : EReal) - y = -y := by
  rw [sub_eq_add_neg, zero_add]

end Cert.IsoDist

end
-- ==== Proof.LibDotRows.lean ====
/-
  A matrix product of two row-major operands taken row against row: [a, k] · [b, k] → [a, b], one contracted axis of
  extent k (axis 1 of BOTH operands), no batch axis, the result's rows from the left operand and its columns from the
  ROWS of the right operand — the product l · rᵀ written without a transpose.

  The dimension numbers place the coordinates: the left operand is read at (row of the result, contraction position),
  the right at (column of the result, contraction position). At the ideal values both the product into a zero
  accumulator and the host's product are the exact sum over the contraction index, so the entry (p, q) of either is
  ∑ κ < k, l (p, κ) · r (q, κ): the inner product of row p of l with row q of r.
-/
import Idealize.ShloMosaic.Lib.ValueIdx
import Idealize.ShloMosaic.PureOps.Ideal.Laws

namespace Cert.DotRows

open Idealize.ShloMosaic Idealize.ShloMosaic.ValueIdx

variable {a k b : ℕ} (d : DotDims ⟨2, ![a, k]⟩ ⟨2, ![b, k]⟩ ⟨2, ![a, b]⟩)

/-- The dimension numbers of a row-against-row product. -/
structure RowsByRows : Prop where
  lhsBatch : d.lhsBatch = []
  lhsNon : d.lhsNonContracting = [0]
  lhsContr : d.lhsContracting = [1]
  rhsBatch : d.rhsBatch = []
  rhsNon : d.rhsNonContracting = [0]
  rhsContr : d.rhsContracting = [1]

variable {d}

/-- The left operand's row is the result's row. -/
theorem lhs_row (h : RowsByRows d) (j : (⟨2, ![a, b]⟩ : Shape).Idx) (q : d.contr.Idx) : (d.lhsIdx j q 0).val = (j 0).val := by
  unfold DotDims.lhsIdx
  rw [dif_neg (by rw [h.lhsBatch]; exact List.not_mem_nil), dif_pos (by rw [h.lhsNon]; exact List.mem_singleton.mpr rfl)]
  simp only [Fin.val_cast]
  have key : ∀ (p : Nat) (hp : p < 2), p = 0 → (j ⟨p, hp⟩).val = (j 0).val := fun p hp e => by subst e; rfl
  exact key _ _ (by simp [h.lhsBatch, h.lhsNon])

/-- The right operand's row is the result's column: the result's axes are the left operand's free axis, then the right's. -/
theorem rhs_row (h : RowsByRows d) (j : (⟨2, ![a, b]⟩ : Shape).Idx) (q : d.contr.Idx) : (d.rhsIdx j q 0).val = (j 1).val := by
  unfold DotDims.rhsIdx
  rw [dif_neg (by rw [h.rhsBatch]; exact List.not_mem_nil), dif_pos (by rw [h.rhsNon]; exact List.mem_singleton.mpr rfl)]
  simp only [Fin.val_cast]
  have key : ∀ (p : Nat) (hp : p < 2), p = 1 → (j ⟨p, hp⟩).val = (j 1).val := fun p hp e => by subst e; rfl
  exact key _ _ (by simp [h.lhsBatch, h.lhsNon, h.rhsNon])

/-- The contraction over the record's own index type, re-indexed to κ < k. -/
theorem sum_contr (h : RowsByRows d) (hr : d.contr.rank = 1) (hs : d.contr.size ⟨0, by omega⟩ = k)
    (l : (⟨2, ![a, k]⟩ : Shape).Idx → EReal) (r : (⟨2, ![b, k]⟩ : Shape).Idx → EReal) (p : Fin a) (q : Fin b) :
    ∑ κ : d.contr.Idx, l (d.lhsIdx (ix2 p q) κ) * r (d.rhsIdx (ix2 p q) κ) = ∑ κ : Fin k, l (ix2 p κ) * r (ix2 q κ) := by
  rw [← Equiv.sum_comp (contrEquiv1 d k hr hs).symm]
  refine Finset.sum_congr rfl fun κ _ => ?_
  have hk := contrEquiv1_symm_val d k hr hs κ
  have el : d.lhsIdx (ix2 p q) ((contrEquiv1 d k hr hs).symm κ) = ix2 p κ := funext fun x => Fin.ext (by
    match x with
    | ⟨0, _⟩ => exact lhs_row h _ _
    | ⟨1, _⟩ => exact (d.lhsIdx_val_of_single h.lhsContr _ _).trans hk)
  have er : d.rhsIdx (ix2 p q) ((contrEquiv1 d k hr hs).symm κ) = ix2 q κ := funext fun x => Fin.ext (by
    match x with
    | ⟨0, _⟩ => exact rhs_row h _ _
    | ⟨1, _⟩ => exact (d.rhsIdx_val_of_single h.rhsContr _ _).trans hk)
  rw [el, er]

/-- The kernel's matrix product into a zero accumulator, at an entry: row p of l against row q of r. -/
theorem matmul_zero_apply {φ₁ φ₂ : FTy} (h : RowsByRows d) (hr : d.contr.rank = 1) (hs : d.contr.size ⟨0, by omega⟩ = k)
    (prec : Option ContractPrecision) (l : FVec Ideal ⟨2, ![a, k]⟩ φ₁) (r : FVec Ideal ⟨2, ![b, k]⟩ φ₂) (p : Fin a) (q : Fin b) :
    matmul d prec l r (constant ⟨2, ![a, b]⟩ .f32 0x00000000#32) (ix2 p q) = ∑ κ : Fin k, l (ix2 p κ) * r (ix2 q κ) :=
  (Ideal.matmul_constant_zero_apply d prec l r (ix2 p q)).trans (sum_contr h hr hs l r p q)

/-- The host's matrix product, at an entry. -/
theorem dotGeneral_apply {φ₁ φ₂ : FTy} (h : RowsByRows d) (hr : d.contr.rank = 1) (hs : d.contr.size ⟨0, by omega⟩ = k)
    (prec : Option ContractPrecision) (l : FVec Ideal ⟨2, ![a, k]⟩ φ₁) (r : FVec Ideal ⟨2, ![b, k]⟩ φ₂) (p : Fin a) (q : Fin b) :
    Host.dotGeneral d prec l r (ix2 p q) = ∑ κ : Fin k, l (ix2 p κ) * r (ix2 q κ) := by
  simp only [Host.dotGeneral]
  exact (Ideal.dotGeneral_apply d prec _ l r (ix2 p q)).trans (sum_contr h hr hs l r p q)

end Cert.DotRows
-- ==== Proof.LibColumn.lean ====
/-
  A vector kept as a column: the two layout steps of a row reduction with the reduced axis kept at extent one.
  An [a] vector cast to [a, 1] holds, at (i, 0), the vector's entry i; an [a, 1] column broadcast to [a, b] holds, at
  (p, c), the column's entry p, whatever the column coordinate c.
-/
import Idealize.ShloMosaic.Lib.Pipeline.Value
import Idealize.ShloMosaic.Lib.ValueIdx

namespace Cert.Column

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Column
-- ==== Proof.KernelDist.lean ====
/-
  The kernel's body, read entry by entry. From a block of 1024 feature rows and the whole prototype array it stores
  0 − √(max((s + t) − 2·d, 0)), where at entry (r, q): s is the lane sum of the squares of block row r, kept as a column
  and broadcast along the row; t the lane sum of the squares of prototype row q, kept as a row and broadcast down the
  column; d the product, into a zero accumulator, of the block with the prototypes row against row (the narrowing of
  the two operands to bf16 is the identity on extended reals). So entry (r, q) of the stored block is the negated
  distance of block row r from prototype row q.
-/
import proofs.«138285_j24696061952724_1_alg».proof.Proof.Gen.KernelIdeal.Skeleton
import proofs.«138285_j24696061952724_1_alg».proof.Proof.DistSpec
import proofs.«138285_j24696061952724_1_alg».proof.Proof.LibDotRows
import proofs.«138285_j24696061952724_1_alg».proof.Proof.LibColumn
import Idealize.ShloMosaic.Lib.ValueLayout

noncomputable section

namespace Cert.KernelIdeal.Body

open Cert.KernelIdeal Cert.KernelIdeal.Gen
open Idealize.ShloMosaic Idealize.ShloMosaic.ValueIdx Cert.IsoDist

/-- The lane sum of a block's squares at row `r` is that row's squared norm. -/
theorem laneSum_sq {n : ℕ} (v : FVec Ideal ⟨2, ![n, 256]⟩ .f32) (h : (⟨2, ![n, 256]⟩ : Shape).Reduces [1] ⟨1, ![n]⟩)
    (hφ : FKind.Formats .f32) (hacc : (0x00000000#32 : BitVec 32) = FKind.add.neutral .f32 hφ) (r : Fin n) :
    multiReduction .add [1] ⟨1, ![n]⟩ (mulf v v) 0x00000000#32 h hφ hacc (ix1 r) = rowSq v r := by
  refine (Ideal.multiReduction_add_single (mulf v v) 0x00000000#32 h hφ hacc (ix1 r)).trans ?_
  unfold rowSq
  refine Finset.sum_congr rfl fun κ _ => ?_
  have e : h.lift (ix1 r) κ = ix2 r κ := funext fun a => Fin.ext (by match a with | ⟨0, _⟩ => rfl | ⟨1, _⟩ => rfl)
  rw [e]; rfl

/-- The feature rows' squared norms, kept as a column and broadcast along the rows: entry `(r, q)` is row `r`'s. -/
theorem featSq_apply (x0 : FVec Ideal S1024x256 .f32) (h : S1024x256.Reduces [1] S1024) (hφ : FKind.Formats .f32)
    (hacc : (0x00000000#32 : BitVec 32) = FKind.add.neutral .f32 hφ) (hc : S1024.ShapeCasts S1024x1)
    (hb : S1024x1.Broadcasts S1024x1000) (r : Fin 1024) (q : Fin 1000) :
    broadcastTo S1024x1000 (shapeCast S1024x1 (multiReduction .add [1] S1024 (mulf x0 x0) 0x00000000#32 h hφ hacc) hc) hb (ix2 r q)
      = rowSq x0 r :=
  (Cert.Column.broadcastTo_a1_ab_apply _ hb r q).trans
    ((Cert.Column.shapeCast_a_a1_apply _ hc r 0).trans (laneSum_sq x0 h hφ hacc r))

/-- The prototype rows' squared norms, kept as a row and broadcast down the columns: entry `(r, q)` is row `q`'s. -/
theorem protoSq_apply (x1 : FVec Ideal S1000x256 .f32) (h : S1000x256.Reduces [1] S1000) (hφ : FKind.Formats .f32)
    (hacc : (0x00000000#32 : BitVec 32) = FKind.add.neutral .f32 hφ) (hc : S1000.ShapeCasts S1x1000)
    (hb : S1x1000.Broadcasts S1024x1000) (r : Fin 1024) (q : Fin 1000) :
    broadcastTo S1024x1000 (shapeCast S1x1000 (multiReduction .add [1] S1000 (mulf x1 x1) 0x00000000#32 h hφ hacc) hc) hb (ix2 r q)
      = rowSq x1 q :=
  (broadcastTo_1b_ab_apply _ hb r q).trans
    ((shapeCast_a_1a_apply _ hc 0 q).trans (laneSum_sq x1 h hφ hacc q))

/-- The product of the narrowed block with the narrowed prototypes, row against row, into a zero accumulator: entry
    `(r, q)` is the inner product of block row `r` with prototype row `q`. -/
theorem cross_apply (x0 : FVec Ideal S1024x256 .f32) (x1 : FVec Ideal S1000x256 .f32) (hlt : FTy.bits .bf16 < FTy.bits .f32)
    (r : Fin 1024) (q : Fin 1000) :
    matmul dot_S1024x256_S1000x256_S1024x1000_1_1_0_0_n_n none (truncf .bf16 x0 hlt) (truncf .bf16 x1 hlt)
        (constant S1024x1000 .f32 0x00000000#32) (ix2 r q)
      = rowDot x0 x1 r q :=
  Cert.DotRows.matmul_zero_apply (d := dot_S1024x256_S1000x256_S1024x1000_1_1_0_0_n_n) ⟨rfl, rfl, rfl, rfl, rfl, rfl⟩ rfl rfl none
    (truncf .bf16 x0 hlt) (truncf .bf16 x1 hlt) r q

/-- The pointwise tail of the body over its three computed arrays. -/
def tail (A B C : FVec Ideal S1024x1000 .f32) : FVec Ideal S1024x1000 .f32 :=
  subf (broadcast S1024x1000 (Scalar.ofBits .f32 0x00000000#32))
    (sqrt (maximumf (subf (addf A B) (mulf (broadcast S1024x1000 (Scalar.ofBits .f32 0x40000000#32)) C))
      (broadcast S1024x1000 (Scalar.ofBits .f32 0x00000000#32))))

/-- The tail at an entry: the zero words are the real zero, and zero minus the root is its negation. -/
theorem tail_apply (A B C : FVec Ideal S1024x1000 .f32) (i : S1024x1000.Idx) : tail A B C i = negDist (A i) (B i) (C i) := by
  show Ideal.ofBits .f32 0x00000000#32 - Ideal.sqrt (max (A i + B i - Ideal.ofBits .f32 0x40000000#32 * C i) (Ideal.ofBits .f32 0x00000000#32)) = _
  rw [Ideal.ofBits_zero_f32, zero_sub_eq_neg]
  rfl

/-- THE PAYLOAD AT AN ENTRY: what the body stores at `(r, q)` is the negated distance of block row `r` from prototype
    row `q`. -/
theorem pay_apply (x0 : FVec Ideal S1024x256 .f32) (x1 : FVec Ideal S1000x256 .f32) (r : Fin 1024) (q : Fin 1000) :
    k0_pay1 (F := Ideal) x0 x1 (ix2 r q) = negDist (rowSq x0 r) (rowSq x1 q) (rowDot x0 x1 r q) := by
  show tail
      (broadcastTo S1024x1000 (shapeCast S1024x1 (multiReduction .add [1] S1024 (mulf x0 x0) 0x00000000#32 Gen.reduces_S1024x256_S1024 (.inl rfl) rfl) Gen.shapeCasts_S1024_S1024x1) Gen.broadcasts_S1024x1_S1024x1000)
      (broadcastTo S1024x1000 (shapeCast S1x1000 (multiReduction .add [1] S1000 (mulf x1 x1) 0x00000000#32 Gen.reduces_S1000x256_S1000 (.inl rfl) rfl) Gen.shapeCasts_S1000_S1x1000) Gen.broadcasts_S1x1000_S1024x1000)
      (matmul dot_S1024x256_S1000x256_S1024x1000_1_1_0_0_n_n none (truncf .bf16 x0 Gen.bitsLt_bf16_f32) (truncf .bf16 x1 Gen.bitsLt_bf16_f32) (constant S1024x1000 .f32 0x00000000#32))
      (ix2 r q) = _
  rw [tail_apply]
  exact congr (congr (congrArg negDist (featSq_apply x0 _ _ _ _ _ r q)) (protoSq_apply x1 _ _ _ _ _ r q)) (cross_apply x0 x1 _ r q)

end Cert.KernelIdeal.Body

end
-- ==== Proof.KernelRun.lean ====
/-
  From blocks to the array. Grid point t stages feature rows 1024·t … 1024·t + 1023 and the whole prototype array, and
  writes back rows 1024·t … 1024·t + 1023 of the result, all 1000 columns. Entry (r, q) of what it writes is the negated
  distance of block row r — feature row 1024·t + r — from prototype row q, which is entry (1024·t + r, q) of the negated
  distance array of the two arguments. The 64 row bands cover the result (row R lies in band R / 1024), so after the run
  the result array is that array.
-/
import proofs.«138285_j24696061952724_1_alg».proof.Proof.Gen.KernelIdeal.Value
import proofs.«138285_j24696061952724_1_alg».proof.Proof.KernelDist

noncomputable section

namespace Cert.KernelIdeal.Whole

open Cert.KernelIdeal Cert.KernelIdeal.Gen Cert.KernelIdeal.Value
open Idealize.ShloMosaic Idealize.ShloMosaic.TcCoe Idealize.SL.Sem Idealize.ShloMosaic.ValueIdx Cert.IsoDist
open Idealize.ShloMosaic.Pipeline (Dat)

variable (m : (ℓ : Loc nD τ sig) → Buf (Elt Ideal) ℓ) (ρ : Dev nD → PrngReg)

theorem zero_off : (![0, 0] : Fin 2 → Nat) = fun _ => 0 := funext fun a => by fin_cases a <;> rfl

/-- The printed index maps, decided over the 64 points: the feature window and the result window sit at block row `t`,
    block column 0; the prototype window always at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem point_lt (t : Fin cfg0.N) : t.val < 64 :=
  lt_of_lt_of_eq t.isLt (N_0 : cfg0.N = 64)

/-- Entry `(r, κ)` of the feature block at point `t` is entry `(R, κ)` of the features, `R = 1024·t + r`. -/
theorem featBlk_apply (c : Dev nD) (t : Fin cfg0.N) (r : Fin 1024) (κ : Fin 256) (R : Fin 65536) (hR : R.val = 1024 * t.val + r.val) :
    (iblk m c 0 t : FVec Ideal S1024x256 .f32) (ix2 r κ) = (V m c main_arg0 : FVec Ideal S65536x256 .f32) (ix2 R κ) := by
  obtain ⟨e00, e01, -⟩ := idx_facts t
  unfold iblk
  rw [View.read_apply]
  show V m c main_arg0 _ = V m c main_arg0 _
  congr 1
  funext a
  apply Fin.ext
  match a with
  | ⟨0, _⟩ => show win0_0.index t (0 : Fin 2) * 1024 + 1 * r.val = R.val; rw [e00, hR]; omega
  | ⟨1, _⟩ => show win0_0.index t (1 : Fin 2) * 256 + 1 * κ.val = κ.val; rw [e01]; omega

/-- The prototype block at any point is the prototype array. -/
theorem protoBlk_apply (c : Dev nD) (t : Fin cfg0.N) (q : Fin 1000) (κ : Fin 256) :
    (iblk m c 1 t : FVec Ideal S1000x256 .f32) (ix2 q κ) = (V m c main_arg1 : FVec Ideal S1000x256 .f32) (ix2 q κ) := by
  obtain ⟨-, -, e10, e11, -⟩ := idx_facts t
  unfold iblk
  rw [View.read_apply]
  show V m c main_arg1 _ = V m c main_arg1 _
  congr 1
  funext a
  apply Fin.ext
  match a with
  | ⟨0, _⟩ => show win0_1.index t (0 : Fin 2) * 1000 + 1 * q.val = q.val; rw [e10]; omega
  | ⟨1, _⟩ => show win0_1.index t (1 : Fin 2) * 256 + 1 * κ.val = κ.val; rw [e11]; omega

/-- Entry `(r, q)` of the result block at point `t` sits at `(1024·t + r, q)` in the result array. -/
theorem outBlk_emb (t : Fin cfg0.N) (r : Fin 1024) (q : Fin 1000) (R : Fin 65536) (hR : R.val = 1024 * t.val + r.val) :
    ((cfg0.win 2).blk t).view.emb (ix2 r q) = (ix2 R q : S65536x1000.Idx) := by
  obtain ⟨-, -, -, -, e20, e21⟩ := idx_facts t
  funext a
  apply Fin.ext
  match a with
  | ⟨0, _⟩ => show win0_2.index t (0 : Fin 2) * 1024 + 1 * r.val = R.val; rw [e20, hR]; omega
  | ⟨1, _⟩ => show win0_2.index t (1 : Fin 2) * 1000 + 1 * q.val = q.val; rw [e21]; omega

/-- WHAT POINT `t` WRITES BACK is block `t` of the negated distance array of the two arguments. -/
theorem flushed_eq (c : Dev nD) (t : Fin cfg0.N) :
    (dats m 0 c).flushed 2 t
      = ((cfg0.win 2).blk t).view.read (Elt Ideal) (G (V m c main_arg0 : FVec Ideal S65536x256 .f32) (V m c main_arg1 : FVec Ideal S1000x256 .f32)) := by
  rw [Value.flushed2]
  unfold out0_2
  rw [View.canon_unit_zero zero_off]
  simp only [View.ld_unit_zero (S := S1024x256) zero_off, View.ld_unit_zero (S := S1000x256) zero_off]
  funext j
  obtain ⟨r, q, rfl⟩ : ∃ (r : Fin 1024) (q : Fin 1000), j = ix2 r q := ⟨j 0, j 1, eq_ix2 (n0 := 1024) (n1 := 1000) j⟩
  have ht := point_lt t
  let R : Fin 65536 := ⟨1024 * t.val + r.val, by have := r.isLt; omega⟩
  have hR : R.val = 1024 * t.val + r.val := rfl
  show k0_pay1 (F := Ideal) (iblk m c 0 t) (iblk m c 1 t) (ix2 r q)
    = G (V m c main_arg0 : FVec Ideal S65536x256 .f32) (V m c main_arg1 : FVec Ideal S1000x256 .f32) (((cfg0.win 2).blk t).view.emb (ix2 r q))
  refine (Cert.KernelIdeal.Body.pay_apply (iblk m c 0 t) (iblk m c 1 t) r q).trans ?_
  rw [outBlk_emb t r q R hR, G_ix2]
  have hs : rowSq (iblk m c 0 t : FVec Ideal S1024x256 .f32) r = rowSq (V m c main_arg0 : FVec Ideal S65536x256 .f32) R :=
    Finset.sum_congr rfl fun κ _ => by rw [featBlk_apply m c t r κ R hR]
  have ht' : rowSq (iblk m c 1 t : FVec Ideal S1000x256 .f32) q = rowSq (V m c main_arg1 : FVec Ideal S1000x256 .f32) q :=
    Finset.sum_congr rfl fun κ _ => by rw [protoBlk_apply m c t q κ]
  have hd : rowDot (iblk m c 0 t : FVec Ideal S1024x256 .f32) (iblk m c 1 t : FVec Ideal S1000x256 .f32) r q
      = rowDot (V m c main_arg0 : FVec Ideal S65536x256 .f32) (V m c main_arg1 : FVec Ideal S1000x256 .f32) R q :=
    Finset.sum_congr rfl fun κ _ => by rw [featBlk_apply m c t r κ R hR, protoBlk_apply m c t q κ]
  exact congr (congr (congrArg negDist hs) ht') hd

/-- An index of the result array is in point `t`'s block iff each coordinate is in the block's range on its axis. -/
theorem mem_blk (t : Fin cfg0.N) (i : S65536x1000.Idx) :
    i ∈ ((cfg0.win 2).blk t).view.set ↔ ∀ a : Fin 2, win0_2.index t a * S1024x1000.size a ≤ (i a).val ∧ (i a).val < win0_2.index t a * S1024x1000.size a + S1024x1000.size a := by
  show i ∈ ((View.whole main_v0).slice (win0_2.rect t)).set ↔ _
  rw [View.set_slice_whole, Rect.mem_set_unit]
  exact Iff.rfl

/-- The row bands cover the result: row `R` is in the block of point `R / 1024`. -/
theorem cover (i : S65536x1000.Idx) : ∃ t : Fin cfg0.N, (cfg0.win 2).flush t = true ∧ i ∈ ((cfg0.win 2).blk t).view.set := by
  have h0 : (i 0).val < 65536 := idx2_lt0 (n0 := 65536) (n1 := 1000) i
  have h1 : (i 1).val < 1000 := idx2_lt1 (n0 := 65536) (n1 := 1000) i
  let t : Fin cfg0.N := ⟨(i 0).val / 1024, by rw [show cfg0.N = 64 from N_0]; omega⟩
  have htv : t.val = (i 0).val / 1024 := rfl
  obtain ⟨-, -, -, -, e20, e21⟩ := idx_facts t
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; rw [e20, htv]; omega
  | ⟨1, _⟩ => show win0_2.index t (1 : Fin 2) * 1000 ≤ (i 1).val ∧ (i 1).val < win0_2.index t (1 : Fin 2) * 1000 + 1000; rw [e21]; omega

/-- THE ARRAY after the run: the negated distance array of the two arguments. -/
theorem final (c : Dev nD) :
    (dats m 0 c).arrAt 2 cfg0.N = G (V m c main_arg0 : FVec Ideal S65536x256 .f32) (V m c main_arg1 : FVec Ideal S1000x256 .f32) :=
  (dats m 0 c).arrAt_eq_of_cover 2 _ (fun t _ => flushed_eq m c t) cover

/-- The run, read: the result array at the negated distances of the arguments as launched, the arguments unchanged. -/
theorem run : θ_run defs (onTc (τ := τ) (main (F := Ideal))) ⟨m, fun _ => 0, ρ⟩ fun r => ∀ c : Dev nD,
      r.2.mem ((c : Thread nD τ).loc main_v0)
        = G (m ((c : Thread nD τ).loc main_arg0) : FVec Ideal S65536x256 .f32) (m ((c : Thread nD τ).loc main_arg1) : FVec Ideal S1000x256 .f32)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.RefDist.lean ====
/-
  The reference, read entry by entry: its squared norms are host sums started from the zero word, its inner products a
  host product of the features with the prototypes row against row, and the rest is pointwise. At entry (r, q) this is
  the negated distance of feature row r from prototype row q.
-/
import proofs.«138285_j24696061952724_1_alg».proof.Proof.Gen.ReferenceIdeal.Read
import proofs.«138285_j24696061952724_1_alg».proof.Proof.DistSpec

noncomputable section

namespace Cert.ReferenceIdeal.RefValue

open Cert.ReferenceIdeal Cert.ReferenceIdeal.Gen Cert.ReferenceIdeal.Read
open Idealize.ShloMosaic Idealize.ShloMosaic.ValueIdx Cert.IsoDist

/-- The feature entries a squared norm of row `r` sums: the reduction's index, read back through the two broadcasts. -/
theorem sq_feat_idx (r : Fin 65536) (q : Fin 1000) (κ : Fin 256) :
    idx_main_v1 (idx_main_v2 (idx_main_v7 (ix2 r q))) κ = ix2 r κ :=
  funext fun a => Fin.ext (by match a with | ⟨0, _⟩ => rfl | ⟨1, _⟩ => rfl)

/-- The prototype entries a squared norm of row `q` sums. -/
theorem sq_proto_idx (r : Fin 65536) (q : Fin 1000) (κ : Fin 256) :
    idx_main_v4 (idx_main_v6 (idx_main_v8 (ix2 r q))) κ = ix2 q κ :=
  funext fun a => Fin.ext (by match a with | ⟨0, _⟩ => rfl | ⟨1, _⟩ => rfl)

/-- The product's left factor at contraction position `κ`: feature row `r`. -/
theorem dot_feat_idx (r : Fin 65536) (q : Fin 1000) (κ : Fin 256) : lidx_main_v5 (ix2 r q) κ = ix2 r κ :=
  funext fun a => Fin.ext (by match a with | ⟨0, _⟩ => rfl | ⟨1, _⟩ => rfl)

/-- The product's right factor at contraction position `κ`: prototype row `q`. -/
theorem dot_proto_idx (r : Fin 65536) (q : Fin 1000) (κ : Fin 256) : ridx_main_v5 (ix2 r q) κ = ix2 q κ :=
  funext fun a => Fin.ext (by match a with | ⟨0, _⟩ => rfl | ⟨1, _⟩ => rfl)

/-- The reference's result is the negated distance array of its two arguments. -/
theorem ref_eq (x0 : (⟨S65536x256, .f32⟩ : BufTy).Contents (Elt Ideal)) (x1 : (⟨S1000x256, .f32⟩ : BufTy).Contents (Elt Ideal)) :
    val_main_v16 (F := Ideal) x0 x1 = G x0 x1 := by
  funext i
  obtain ⟨r, q, rfl⟩ : ∃ (r : Fin 65536) (q : Fin 1000), i = ix2 r q := ⟨i 0, i 1, eq_ix2 i⟩
  rw [G_ix2]
  simp only [val_main_v16_apply, val_main_v15_apply, val_main_v14_apply, val_main_v13_apply, val_main_cst_2_apply,
    val_main_v12_apply, val_main_v11_apply, val_main_v10_apply, val_main_cst_1_apply, val_main_v9_apply,
    val_main_v8_apply, val_main_v7_apply, val_main_v6_apply, val_main_v2_apply, val_main_v5_apply, val_main_v4_apply,
    val_main_v1_apply, val_main_cst_apply, val_main_cst_0_apply, val_main_v0_apply, val_main_v3_apply,
    sq_feat_idx, sq_proto_idx, dot_feat_idx, dot_proto_idx]
  simp only [negDist, rowSq, rowDot, Ideal.ofBits_def, Ideal.mulf_def, Ideal.addf_def, Ideal.subf_def, Ideal.maximumf_def,
    Ideal.hostUnary_sqrt_def, Ideal.hostNegf_def, Ideal.negf_def, Ideal.ofBits_zero_f32, zero_add]

end Cert.ReferenceIdeal.RefValue

end
-- ==== Proof.lean ====
/-
  Negated pairwise Euclidean distances between 65536 feature rows and 1000 prototype rows of 256 columns, through
  ‖x − p‖² = ‖x‖² + ‖p‖² − 2 ⟨x, p⟩:  result (R, q) = −√(max(‖x_R‖² + ‖p_q‖² − 2 ⟨x_R, p_q⟩, 0)).

  The kernel walks the features in 64 bands of 1024 rows; for a band it takes the lane sums of the squares of the band's
  rows and of the prototype rows, the product of the band with the prototypes row against row into a zero accumulator
  (its operands narrowed to bf16 first, which is the identity on extended reals), and stores 0 − √(max(·, 0)) of the
  expansion. The reference computes the same expansion on whole arrays: two host sums started from zero, one host
  product, and a negation of the root. Entry by entry both are the same expression in the same grouping — the sums over
  the 256 columns are literally the same sums — so the two results agree on every extended real input; the only
  arithmetic used is 0 + s = s and 0 − y = −y. The bands tile the result, so the kernel's array is the whole expression.

  The ideal pass rewrote nothing, so the idealized kernel is the kernel's own text read over the extended reals.
-/
import proofs.«138285_j24696061952724_1_alg».proof.Defs
import proofs.«138285_j24696061952724_1_alg».proof.Proof.Gen.Kernel
import proofs.«138285_j24696061952724_1_alg».proof.Proof.Gen.Kernel.Skeleton
import proofs.«138285_j24696061952724_1_alg».proof.Proof.Gen.Kernel.Launch
import proofs.«138285_j24696061952724_1_alg».proof.Proof.Gen.Kernel.Points
import proofs.«138285_j24696061952724_1_alg».proof.Proof.Gen.Kernel.Frame
import proofs.«138285_j24696061952724_1_alg».proof.Proof.Gen.KernelIdeal
import proofs.«138285_j24696061952724_1_alg».proof.Proof.Gen.KernelIdeal.Skeleton
import proofs.«138285_j24696061952724_1_alg».proof.Proof.Gen.KernelIdeal.Launch
import proofs.«138285_j24696061952724_1_alg».proof.Proof.Gen.KernelIdeal.Points
import proofs.«138285_j24696061952724_1_alg».proof.Proof.Gen.KernelIdeal.Frame
import proofs.«138285_j24696061952724_1_alg».proof.Proof.Gen.ReferenceIdeal
import proofs.«138285_j24696061952724_1_alg».proof.Proof.Gen.Pre_finite_inputs
import proofs.«138285_j24696061952724_1_alg».proof.Proof.Gen.KernelIdeal.Value
import proofs.«138285_j24696061952724_1_alg».proof.Proof.Gen.ReferenceIdeal.Run
import proofs.«138285_j24696061952724_1_alg».proof.Proof.Gen.ReferenceIdeal.Read
import proofs.«138285_j24696061952724_1_alg».proof.Proof.KernelRun
import proofs.«138285_j24696061952724_1_alg».proof.Proof.RefDist
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does its reading over the extended reals. -/
theorem frame_ideal : Cert.frame_KernelIdeal := fun m ρ _ => Cert.KernelIdeal.Gen.frame m ρ

/-- The reference runs and keeps its arguments: its run with the result dropped. -/
theorem frame_ref : Cert.frame_ReferenceIdeal := fun m ρ _ =>
  (θ_run Cert.ReferenceIdeal.defs _ _).mono (fun _ h c => (h c).2) (Cert.ReferenceIdeal.Value.run (F := Ideal) m ρ)

/-- Nothing was rewritten between the kernel and its idealization. -/
theorem preserves : Cert.preserves_Kernel_KernelIdeal := trivial

/-- Both programs end with the negated distance array of the (agreeing) arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v16_eq _ _).trans (Cert.ReferenceIdeal.RefValue.ref_eq _ _)

theorem claim : Cert.Claim :=
  ⟨Cert.Kernel.Gen.facts, Cert.KernelIdeal.Gen.facts, Cert.ReferenceIdeal.Gen.facts, Cert.Pre_finite_inputs.Gen.facts,
    frame_kernel, frame_ideal, frame_ref, preserves, algebraic⟩

end Cert.Proof

end
